-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x128 : Shape := ⟨2, ![524288, 128]⟩
abbrev S256x128 : Shape := ⟨2, ![256, 128]⟩
abbrev S128 : Shape := ⟨1, ![128]⟩
abbrev S_ : Shape := ⟨0, ![]⟩

class Facts : Prop where
  bcast_S_S524288x128 : S_.BroadcastsInDim S524288x128 (![] : Fin 0 → Fin S524288x128.rank)
  reducesTo_S524288x128_S_d0_1 : S524288x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S524288x128 .f32) (main_arg1 : FVec F S524288x128 .f32) (main_arg2 : FVec F S256x128 .f32) (main_arg3 : FVec F S256x128 .f32) (main_arg4 : FVec F S128 .f32) (main_arg5 : FVec F S128 .f32) : IVec S_ 1 :=
  let main_v0 : FVec F S524288x128 .f32 := Host.absf main_arg0
  let main_cst : FVec F S_ .f32 := constant S_ .f32 0x7F800000#32
  let main_v1 : FVec F S524288x128 .f32 := broadcastInDim S524288x128 ![] bcast_S_S524288x128 main_cst
  let main_v2 : IVec S524288x128 1 := cmpf .olt main_v0 main_v1
  let main_c : IVec S_ 1 := constantI S_ 1 1#1
  let main_v3 : IVec S_ 1 := (fun x v => Host.reduce IntOp.andi x v reducesTo_S524288x128_S_d0_1 h_S_) main_v2 main_c
  let main_v4 : FVec F S524288x128 .f32 := Host.absf main_arg1
  let main_cst_0 : FVec F S_ .f32 := constant S_ .f32 0x7F800000#32
  let main_v5 : FVec F S524288x128 .f32 := broadcastInDim S524288x128 ![] bcast_S_S524288x128 main_cst_0
  let main_v6 : IVec S524288x128 1 := cmpf .olt main_v4 main_v5
  let main_c_1 : IVec S_ 1 := constantI S_ 1 1#1
  let main_v7 : IVec S_ 1 := (fun x v => Host.reduce IntOp.andi x v reducesTo_S524288x128_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_v13 main_v16
-- ==== Kernel.lean ====
abbrev S524288x128 : Shape := ⟨2, ![524288, 128]⟩
abbrev S256x128 : Shape := ⟨2, ![256, 128]⟩
abbrev S128 : Shape := ⟨1, ![128]⟩
abbrev S1x128 : Shape := ⟨2, ![1, 128]⟩
abbrev S4096x128 : Shape := ⟨2, ![4096, 128]⟩
abbrev S4096x256 : Shape := ⟨2, ![4096, 256]⟩

abbrev nBuf : Space → Nat
  | .hbm => 9
  | .vmem => 10
  | .smem => 0
  | _ => 0

abbrev bufTy : (tb : Table) → Fin (tcTables nBuf tb) → BufTy
  | .hbm, ⟨0, _⟩ => ⟨S524288x128, .f32⟩
  | .hbm, ⟨1, _⟩ => ⟨S524288x128, .f32⟩
  | .hbm, ⟨2, _⟩ => ⟨S256x128, .f32⟩
  | .hbm, ⟨3, _⟩ => ⟨S256x128, .f32⟩
  | .hbm, ⟨4, _⟩ => ⟨S128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S524288x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S1x128, .f32⟩
  | .local _ .vmem, ⟨8, _⟩ => ⟨S4096x128, .f32⟩
  | .local _ .vmem, ⟨9, _⟩ => ⟨S4096x128, .f32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  concatenates_S4096x128_S4096x128_S4096x256_d1 : Shape.Concatenates [S4096x128, S4096x128] S4096x256 1
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  dot_S4096x256_S256x128_S4096x128_1_0_0_1_n_n_wf : DotDims.WF S4096x256 S256x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S524288x128.size a
  hwx0_0 : ∀ i : grid0.Coords, EltTy.bits .f32 = 32 ∨ (Rect.block (s := S524288x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S524288x128.size a
  hwx0_1 : ∀ i : grid0.Coords, EltTy.bits .f32 = 32 ∨ (Rect.block (s := S524288x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x128.size a ≤ S524288x128.size a
  hwx0_6 : ∀ i : grid0.Coords, EltTy.bits .f32 = 32 ∨ (Rect.block (s := S524288x128) S4096x128.size (cc0_transform_6 i) (hinb0_6 i)).WholeWords (EltTy.packing .f32)

variable [Facts₀]

def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S4096x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S524288x128 : Shape := ⟨2, ![524288, 128]⟩
abbrev S256x128 : Shape := ⟨2, ![256, 128]⟩
abbrev S128 : Shape := ⟨1, ![128]⟩
abbrev S128x128 : Shape := ⟨2, ![128, 128]⟩
abbrev S1x128 : Shape := ⟨2, ![1, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S524288x128, .f32⟩
  | .hbm, ⟨1, _⟩ => ⟨S524288x128, .f32⟩
  | .hbm, ⟨2, _⟩ => ⟨S256x128, .f32⟩
  | .hbm, ⟨3, _⟩ => ⟨S256x128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S524288x128, .f32⟩
  | .hbm, ⟨9, _⟩ => ⟨S524288x128, .f32⟩
  | .hbm, ⟨10, _⟩ => ⟨S524288x128, .f32⟩
  | .hbm, ⟨11, _⟩ => ⟨S1x128, .f32⟩
  | .hbm, ⟨12, _⟩ => ⟨S524288x128, .f32⟩
  | .hbm, ⟨13, _⟩ => ⟨S524288x128, .f32⟩
  | .hbm, ⟨14, _⟩ => ⟨S524288x128, .f32⟩
  | .hbm, ⟨15, _⟩ => ⟨S524288x128, .f32⟩
  | .hbm, ⟨16, _⟩ => ⟨S_, .f32⟩
  | .hbm, ⟨17, _⟩ => ⟨S524288x128, .f32⟩
  | .hbm, ⟨18, _⟩ => ⟨S524288x128, .f32⟩
  | .hbm, ⟨19, _⟩ => ⟨S_, .f32⟩
  | .hbm, ⟨20, _⟩ => ⟨S524288x128, .f32⟩
  | .hbm, ⟨21, _⟩ => ⟨S524288x128, .f32⟩
  | .hbm, ⟨22, _⟩ => ⟨S128x128, .f32⟩
  | .hbm, ⟨23, _⟩ => ⟨S128x128, .f32⟩
  | .hbm, ⟨24, _⟩ => ⟨S524288x128, .f32⟩
  | .hbm, ⟨25, _⟩ => ⟨S524288x128, .f32⟩
  | .hbm, ⟨26, _⟩ => ⟨S524288x128, .f32⟩
  | .hbm, ⟨27, _⟩ => ⟨S1x128, .f32⟩
  | .hbm, ⟨28, _⟩ => ⟨S524288x128, .f32⟩
  | .hbm, ⟨29, _⟩ => ⟨S524288x128, .f32⟩
  | .hbm, ⟨30, _⟩ => ⟨S524288x128, .f32⟩
  | .hbm, ⟨31, _⟩ => ⟨S524288x128, .f32⟩
  | .hbm, ⟨32, _⟩ => ⟨S_, .f32⟩
  | .hbm, ⟨33, _⟩ => ⟨S524288x128, .f32⟩
  | .hbm, ⟨34, _⟩ => ⟨S524288x128, .f32⟩
  | .hbm, ⟨35, _⟩ => ⟨S_, .f32⟩
  | .hbm, ⟨36, _⟩ => ⟨S524288x128, .f32⟩
  | .hbm, ⟨37, _⟩ => ⟨S524288x128, .f32⟩
  | _, _ => ⟨S524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]

class Facts₀ : Prop where
  slices_S256x128_S128x128_0_0 : S256x128.Slices ![0, 0] S128x128
  slices_S256x128_S128x128_128_0 : S256x128.Slices ![128, 0] S128x128
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  bcast_S_S524288x128 : S_.BroadcastsInDim S524288x128 (![] : Fin 0 → Fin S524288x128.rank)
  dot_S524288x128_S128x128_S524288x128_1_0_0_1_n_n_wf : DotDims.WF S524288x128 S128x128 S524288x128 [1] [0] [0] [1] [] []

variable [Facts₀]

def dot_S524288x128_S128x128_S524288x128_1_0_0_1_n_n : DotDims S524288x128 S128x128 S524288x128 where
  lhsContracting := [1]
  rhsContracting := [0]
  lhsNonContracting := [0]
  rhsNonContracting := [1]
  lhsBatch := []
  rhsBatch := []
  wf := dot_S524288x128_S128x128_S524288x128_1_0_0_1_n_n_wf

class Facts : Prop extends Facts₀ where

variable [Facts]
-- ==== Proof.Gates.lean ====
/- Two stacked sigmoid gates over a batch of rows, as one function of the argument arrays.

   For a row r with input x[r, ·] and state h[r, ·] (128 entries each) and a 256 × 128 weight array W whose first 128
   rows act on the first operand and whose last 128 rows act on the second, a gate is

       gate a b W β (r, c) = σ( Σ_{k<128} a[r, k] · W[k, c]  +  Σ_{k<128} b[r, k] · W[128 + k, c]  +  β[c] ),

   σ(z) = 1 / (1 + e^(−z)) on the extended reals. The result is the second gate applied to the first gate's output
   and the state again: out = gate (gate x h W₁ β₁) h W₂ β₂.

   The one law used: a sum over 256 consecutive coordinates is the sum over the first 128 plus the sum over the last
   128. Addition of extended reals is commutative and associative, so no entry needs to be finite. -/
import Idealize.ShloMosaic.PureOps.Ideal
import Idealize.ShloMosaic.PureOps.Ideal.Laws
import Idealize.ShloMosaic.PureOps.IdealRules
import Idealize.ShloMosaic.Lib.ValueIdx

noncomputable section

open scoped BigOperators

namespace Cert.Gates

open Idealize.ShloMosaic Idealize.ShloMosaic.ValueIdx

/-- Row k of the upper half of a 256-row array. -/
abbrev upper (k : Fin 128) : Fin 256 := ⟨k.val, by have := k.isLt; omega⟩
/-- Row k of the lower half of a 256-row array. -/
abbrev lower (k : Fin 128) : Fin 256 := ⟨128 + k.val, by have := k.isLt; omega⟩

/-- The pre-activation of a gate at (r, c): the first operand's row against the upper half of the weights, the second
    operand's row against the lower half, and the bias. -/
def pre {N : Nat} (a b : (⟨2, ![N, 128]⟩ : Shape).Idx → EReal) (w : (⟨2, ![256, 128]⟩ : Shape).Idx → EReal)
    (β : Fin 128 → EReal) (r : Fin N) (c : Fin 128) : EReal :=
  (∑ k : Fin 128, a (ix2 r k) * w (ix2 (upper k) c) + ∑ k : Fin 128, b (ix2 r k) * w (ix2 (lower k) c)) + β c

/-- A gate: the logistic function of the pre-activation. -/
def gate {N : Nat} (a b : (⟨2, ![N, 128]⟩ : Shape).Idx → EReal) (w : (⟨2, ![256, 128]⟩ : Shape).Idx → EReal)
    (β : Fin 128 → EReal) (r : Fin N) (c : Fin 128) : EReal :=
  Ideal.logistic (pre a b w β r c)

/-- A gate's values laid out as an array of N rows. -/
def gateArr {N : Nat} (a b : (⟨2, ![N, 128]⟩ : Shape).Idx → EReal) (w : (⟨2, ![256, 128]⟩ : Shape).Idx → EReal)
    (β : Fin 128 → EReal) : (⟨2, ![N, 128]⟩ : Shape).Idx → EReal :=
  fun i => gate a b w β (i 0) (i 1)

/-- The whole computation: the second gate over the first gate's output and the state. -/
def twoGates {N : Nat} (x h : (⟨2, ![N, 128]⟩ : Shape).Idx → EReal) (w₁ w₂ : (⟨2, ![256, 128]⟩ : Shape).Idx → EReal)
    (β₁ β₂ : Fin 128 → EReal) : (⟨2, ![N, 128]⟩ : Shape).Idx → EReal :=
  gateArr (gateArr x h w₁ β₁) h w₂ β₂

/-- A gate at row r depends only on row r of its two operands: operands that agree with another pair's row r' give the
    other pair's gate at r'. -/
theorem gate_congr {N N' : Nat} (a b : (⟨2, ![N, 128]⟩ : Shape).Idx → EReal) (a' b' : (⟨2, ![N', 128]⟩ : Shape).Idx → EReal)
    (w : (⟨2, ![256, 128]⟩ : Shape).Idx → EReal) (β : Fin 128 → EReal) (r : Fin N) (r' : Fin N') (c : Fin 128)
    (ha : ∀ k, a (ix2 r k) = a' (ix2 r' k)) (hb : ∀ k, b (ix2 r k) = b' (ix2 r' k)) :
    gate a b w β r c = gate a' b' w β r' c := by
  unfold gate pre
  simp only [ha, hb]

/-- The two stacked gates at row r depend only on row r of x and of h: blocks whose row p holds those rows give the same
    value at (p, c) as the arrays do at (r, c). -/
theorem twoGates_congr {N N' : Nat} (x h : (⟨2, ![N, 128]⟩ : Shape).Idx → EReal) (x' h' : (⟨2, ![N', 128]⟩ : Shape).Idx → EReal)
    (w₁ w₂ : (⟨2, ![256, 128]⟩ : Shape).Idx → EReal) (β₁ β₂ : Fin 128 → EReal) (r : Fin N) (r' : Fin N') (c : Fin 128)
    (hx : ∀ k, x (ix2 r k) = x' (ix2 r' k)) (hh : ∀ k, h (ix2 r k) = h' (ix2 r' k)) :
    twoGates x h w₁ w₂ β₁ β₂ (ix2 r c) = twoGates x' h' w₁ w₂ β₁ β₂ (ix2 r' c) := by
  show gate (gateArr x h w₁ β₁) h w₂ β₂ r c = gate (gateArr x' h' w₁ β₁) h' w₂ β₂ r' c
  exact gate_congr _ _ _ _ _ _ _ _ _ (fun k => gate_congr x h x' h' w₁ β₁ r r' k hx hh) hh

/-- A sum over 256 consecutive coordinates is the sum over the first 128 plus the sum over the last 128. -/
theorem sum_halves {M : Type} [AddCommMonoid M] (f : Fin 256 → M) :
    ∑ k : Fin 256, f k = ∑ k : Fin 128, f (upper k) + ∑ k : Fin 128, f (lower k) :=
  Fin.sum_univ_add (a := 128) (b := 128) f

/-- The logistic function spelt with the unit constant's bit pattern: 1 / (1 + e^(−z)) with both ones the word of 1.0. -/
theorem logistic_spelt (z : EReal) :
    Ideal.div (Ideal.ofBits .f32 0x3F800000#32) (Ideal.ofBits .f32 0x3F800000#32 + Ideal.exp (-z)) = Ideal.logistic z := by
  have h1 : Ideal.ofBits .f32 0x3F800000#32 = 1 := IdealRules.sign_bit.ideal_onePat .f32
  rw [h1]
  rfl

end Cert.Gates

end
-- ==== Proof.LibLayoutAt.lean ====
/- Four layout operations read at an index written by its coordinates — general facts, about no particular program:
   the transpose of a matrix, a band of consecutive rows cut out of a matrix, two matrices of equal height joined side
   by side, and a matrix given a new unit axis in the middle. -/
import Idealize.ShloMosaic.Lib.ValueIdx
import Idealize.ShloMosaic.Lib.Pipeline.Value

namespace Cert.Lib.LayoutAt

open Idealize.ShloMosaic Idealize.ShloMosaic.ValueIdx

variable {α : Type}

/-- Entry (c, n) of the transpose is entry (n, c) of the matrix. -/
theorem transpose_at {N C : Nat} (x : (⟨2, ![N, C]⟩ : Shape).Idx → α)
    (h : (⟨2, ![N, C]⟩ : Shape).Transposes ([1, 0] : List (Fin 2)) ⟨2, ![C, N]⟩) (c : Fin C) (n : Fin N) :
    transpose ⟨2, ![C, N]⟩ ([1, 0] : List (Fin 2)) x h (ix2 c n) = x (ix2 n c) :=
  transpose_apply _ x h _ (ix2 n c) (fun b => match b with
    | ⟨0, _⟩ => rfl
    | ⟨1, _⟩ => rfl)

/-- Rows k … k + R − 1 of a matrix of R' rows, cut out as a matrix of R rows: entry (r, c) is entry (k + r, c). -/
theorem rowBand_at {R' R C k : Nat} (x : (⟨2, ![R', C]⟩ : Shape).Idx → α)
    (h : (⟨2, ![R', C]⟩ : Shape).Slices ![k, 0] ⟨2, ![R, C]⟩) (r : Fin R) (c : Fin C) (hr : k + r.val < R') :
    extractStridedSlice ⟨2, ![R, C]⟩ ![k, 0] x h (ix2 r c) = x (ix2 ⟨k + r.val, hr⟩ c) :=
  extractStridedSlice_apply _ x h _ _ (fun a => match a with
    | ⟨0, _⟩ => rfl
    | ⟨1, _⟩ => by show c.val = 0 + c.val; omega)

/-- Two matrices of N rows joined side by side, read in the LEFT part: the first matrix there. -/
theorem sideBySide_left {N A B W : Nat} (x : (⟨2, ![N, A]⟩ : Shape).Idx → α) (y : (⟨2, ![N, B]⟩ : Shape).Idx → α)
    (h : Shape.Concatenates [⟨2, ![N, A]⟩, ⟨2, ![N, B]⟩] ⟨2, ![N, W]⟩ 1) (n : Fin N) (c : Fin W) (hc : c.val < A) :
    concatenate ⟨2, ![N, W]⟩ 1 [⟨⟨2, ![N, A]⟩, x⟩, ⟨⟨2, ![N, B]⟩, y⟩] h (ix2 n c) = x (ix2 n ⟨c.val, hc⟩) :=
  concatenate_pair_apply_left 1 x y h (ix2 n c) rfl (ix2 n ⟨c.val, hc⟩) (fun b => match b with
    | ⟨0, _⟩ => rfl
    | ⟨1, _⟩ => rfl)

/-- Two matrices of N rows joined side by side, read in the RIGHT part: the second matrix, the first one's width less. -/
theorem sideBySide_right {N A B W : Nat} (x : (⟨2, ![N, A]⟩ : Shape).Idx → α) (y : (⟨2, ![N, B]⟩ : Shape).Idx → α)
    (h : Shape.Concatenates [⟨2, ![N, A]⟩, ⟨2, ![N, B]⟩] ⟨2, ![N, W]⟩ 1) (n : Fin N) (c : Fin W) (hc : A ≤ c.val)
    (hB : c.val - A < B) :
    concatenate ⟨2, ![N, W]⟩ 1 [⟨⟨2, ![N, A]⟩, x⟩, ⟨⟨2, ![N, B]⟩, y⟩] h (ix2 n c) = y (ix2 n ⟨c.val - A, hB⟩) :=
  concatenate_pair_apply_right 1 x y h (ix2 n c) rfl rfl (ix2 n ⟨c.val - A, hB⟩)
    (fun b hb => match b, hb with
      | ⟨0, _⟩, _ => rfl
      | ⟨1, _⟩, hb => absurd rfl hb)
    (by show c.val - A + A = c.val; omega)

/-- A matrix given a new unit axis in the middle: entry (n, z, c) is entry (n, c). -/
theorem midUnit_at {N C : Nat} (hN : N ≠ 1) (hC : C ≠ 1) (x : (⟨2, ![N, C]⟩ : Shape).Idx → α)
    (h : (⟨2, ![N, C]⟩ : Shape).BroadcastsInDim ⟨3, ![N, 1, C]⟩ (![0, 2] : Fin 2 → Fin 3)) (n : Fin N) (z : Fin 1) (c : Fin C) :
    broadcastInDim ⟨3, ![N, 1, C]⟩ (![0, 2] : Fin 2 → Fin 3) h x (ix3 n z c) = x (ix2 n c) :=
  broadcastInDim_apply _ h x _ (ix2 n c) (fun a => match a with
    | ⟨0, _⟩ => by show n.val = if N = 1 then 0 else n.val; rw [if_neg hN]
    | ⟨1, _⟩ => by show c.val = if C = 1 then 0 else c.val; rw [if_neg hC])

end Cert.Lib.LayoutAt
-- ==== Proof.LibPlainProduct.lean ====
/- The plain product of an M×K array by a K×N array on the extended reals, accumulated into the all-zero array and
   read at an entry (r, c): the sum over the contracted coordinate k of A (r, k) · B (k, c). A general fact, about no
   particular program. -/
import Idealize.ShloMosaic.PureOps.Ideal.Laws
import Idealize.ShloMosaic.Lib.ValueIdx
import Idealize.ShloMosaic.Lib.StackMember

noncomputable section

namespace Cert.Lib.PlainProduct

open Idealize.ShloMosaic Idealize.ShloMosaic.ValueIdx

/-- Into the zero accumulator a matrix product is the host's product with the same dimension record (both are the sum
    of the operands' products over the contraction index), and the host's plain product at an entry is the sum over
    the contracted coordinate. -/
theorem matmul_zero_plain_apply {M K N : Nat} {φ₁ φ₂ : FTy} (A : FVec Ideal ⟨2, ![M, K]⟩ φ₁) (B : FVec Ideal ⟨2, ![K, N]⟩ φ₂)
    (r : Fin M) (c : Fin N) :
    matmul (F := Ideal) (DotDims.plain M K N) none A B (constant ⟨2, ![M, N]⟩ .f32 0x00000000#32) (ix2 r c)
      = ∑ k : Fin K, A (ix2 r k) * B (ix2 k c) := by
  have h : matmul (F := Ideal) (DotDims.plain M K N) none A B (constant ⟨2, ![M, N]⟩ .f32 0x00000000#32)
      = Host.dotGeneral (F := Ideal) (DotDims.plain M K N) none A B := by
    funext j
    simp only [matmul, Host.dotGeneral]
    rw [Ideal.matmul_constant_zero_apply, Ideal.dotGeneral_apply]
  rw [h]
  exact StackMember.dotGeneral_plain_apply none A B r c

end Cert.Lib.PlainProduct

end
-- ==== Proof.GateBlock.lean ====
/- One grid point's block of the kernel: what the body stores, read at an entry.

   The body joins the x block and the h block side by side (4096 × 256), multiplies by the first 256 × 128 weight array
   into a zero accumulator, adds the first bias row and applies the logistic function; it then joins that result with the
   h block again, multiplies by the second weight array, adds the second bias row and applies the logistic function.
   A product of a side-by-side join with a 256-row array splits, by the two halves of the contracted coordinate, into the
   left part against the upper 128 rows plus the right part against the lower 128 rows: so each step is a gate, and the
   stored block is the two stacked gates of the blocks' rows. -/
import proofs.«420585_j47296179864168_3_alg».proof.Proof.Gen.KernelIdeal.Skeleton
import proofs.«420585_j47296179864168_3_alg».proof.Proof.Gates
import proofs.«420585_j47296179864168_3_alg».proof.Proof.LibLayoutAt
import proofs.«420585_j47296179864168_3_alg».proof.Proof.LibPlainProduct
import Idealize.ShloMosaic.Lib.ValueLayout
import Idealize.ShloMosaic.Lib.Pipeline.Value

noncomputable section

open scoped BigOperators

namespace Cert.KernelIdeal.BlockValue

open Cert.KernelIdeal Cert.KernelIdeal.Gen Idealize.ShloMosaic Idealize.ShloMosaic.ValueIdx Cert.Gates

/-- The bias row of a 1 × 128 block as a function of the column. -/
abbrev rowOf (β : FVec Ideal S1x128 .f32) : Fin 128 → EReal := fun c => β (ix2 (0 : Fin 1) c)

/-- Two 4096 × 128 blocks joined side by side, times a 256 × 128 array into the zero accumulator, read at (p, q): the
    left block's row p against the upper half of the array plus the right block's row p against the lower half. -/
theorem joined_product_at (a b : FVec Ideal S4096x128 .f32) (w : FVec Ideal S256x128 .f32) (p : Fin 4096) (q : Fin 128) :
    matmul (F := Ideal) dot_S4096x256_S256x128_S4096x128_1_0_0_1_n_n (some .fp32)
        (concatenate S4096x256 1 [⟨S4096x128, a⟩, ⟨S4096x128, b⟩] concatenates_S4096x128_S4096x128_S4096x256_d1) w
        (constant S4096x128 .f32 0x00000000#32) (ix2 p q)
      = ∑ k : Fin 128, a (ix2 p k) * w (ix2 (upper k) q) + ∑ k : Fin 128, b (ix2 p k) * w (ix2 (lower k) q) := by
  have hm := Cert.Lib.PlainProduct.matmul_zero_plain_apply (M := 4096) (K := 256) (N := 128)
    (concatenate S4096x256 1 [⟨S4096x128, a⟩, ⟨S4096x128, b⟩] concatenates_S4096x128_S4096x128_S4096x256_d1) w p q
  refine Eq.trans ?_ (hm.trans ?_)
  · rfl
  · rw [sum_halves]
    congr 1
    · refine Finset.sum_congr rfl fun k _ => ?_
      rw [Cert.Lib.LayoutAt.sideBySide_left a b concatenates_S4096x128_S4096x128_S4096x256_d1 p (upper k) k.isLt]
    · refine Finset.sum_congr rfl fun k _ => ?_
      rw [Cert.Lib.LayoutAt.sideBySide_right a b concatenates_S4096x128_S4096x128_S4096x256_d1 p (lower k)
        (Nat.le_add_right 128 k.val) (by show 128 + k.val - 128 < 128; have := k.isLt; omega)]
      have e : (⟨(lower k).val - 128, by show 128 + k.val - 128 < 128; have := k.isLt; omega⟩ : Fin 128) = k :=
        Fin.ext (by show 128 + k.val - 128 = k.val; omega)
      rw [e]

/-- A 1 × 128 row, cast to its own shape and repeated over 4096 rows, read at (p, q): the row's entry q. -/
theorem bias_at (β : FVec Ideal S1x128 .f32) (p : Fin 4096) (q : Fin 128) :
    broadcastTo S4096x128 (shapeCast S1x128 β shapeCasts_S1x128_S1x128) broadcasts_S1x128_S4096x128 (ix2 p q) = rowOf β q := by
  rw [shapeCast_self]
  exact broadcastTo_1b_ab_apply β broadcasts_S1x128_S4096x128 p q

/-- THE STORED BLOCK at (p, q): the second gate over the first gate's block and the h block. -/
theorem stored_at (v0 v1 : Vec Ideal S4096x128 .f32) (v3 : Vec Ideal S256x128 .f32) (v5 : Vec Ideal S1x128 .f32)
    (v11 : Vec Ideal S256x128 .f32) (v13 : Vec Ideal S1x128 .f32) (p : Fin 4096) (q : Fin 128) :
    k0_pay1 (F := Ideal) v0 v1 v3 v5 v11 v13 (ix2 p q) = twoGates v0 v1 v3 v11 (rowOf v5) (rowOf v13) (ix2 p q) := by
  unfold k0_pay1
  show Ideal.logistic (_ + _) = Ideal.logistic (pre (gateArr v0 v1 v3 (rowOf v5)) v1 v11 (rowOf v13) p q)
  unfold pre
  rw [joined_product_at, bias_at]
  congr 3
  refine Finset.sum_congr rfl fun k _ => ?_
  congr 1
  show Ideal.logistic (_ + _) = Ideal.logistic (pre v0 v1 v3 (rowOf v5) p k)
  unfold pre
  rw [joined_product_at, bias_at]

end Cert.KernelIdeal.BlockValue

end
-- ==== Proof.GateArray.lean ====
/- From the grid's blocks to the whole output array.

   Grid point t (of 128) works on rows 4096·t … 4096·t + 4095: it is handed those rows of x and of h, the two weight
   arrays whole and the two bias vectors as 1 × 128 rows, and writes back those rows of the result. The stored block is
   the two stacked gates of the blocks' rows (the block module); a gate at a row reads only that row of x and h, so block
   t of the result is block t of ONE array, the two stacked gates of the argument arrays. The 128 blocks tile the
   524288 rows, so after the run the output array is that array. -/
import proofs.«420585_j47296179864168_3_alg».proof.Proof.Gen.KernelIdeal.Value
import proofs.«420585_j47296179864168_3_alg».proof.Proof.GateBlock
import Idealize.ShloMosaic.Lib.Pipeline.Value
import Idealize.ShloMosaic.Lib.ValueLayout
import Idealize.ShloMosaic.Lib.StableHlo.Run

set_option maxRecDepth 16384

noncomputable section

open scoped BigOperators

namespace Cert.KernelIdeal.ArrayValue

open Cert.KernelIdeal Cert.KernelIdeal.Gen Cert.KernelIdeal.Value Cert.KernelIdeal.BlockValue
open Idealize.ShloMosaic Idealize.ShloMosaic.TcCoe Idealize.SL.Sem Idealize.ShloMosaic.ValueIdx Cert.Gates
open Idealize.ShloMosaic.Pipeline (Dat)

variable (m : (ℓ : Loc nD τ sig) → Buf (Elt Ideal) ℓ) (ρ : Dev nD → PrngReg)

/-- A bias vector of the launch memory as a function of the column. -/
abbrev biasOf (β : S128.Idx → EReal) : Fin 128 → EReal := fun q => β (ix1 q)

/-- The whole result: the two stacked gates of the six argument arrays as launched. -/
def result (c : Dev nD) : S524288x128.Idx → EReal :=
  twoGates (m ((c : Thread nD τ).loc main_arg0)) (m ((c : Thread nD τ).loc main_arg1))
    (m ((c : Thread nD τ).loc main_arg2)) (m ((c : Thread nD τ).loc main_arg3))
    (biasOf (m ((c : Thread nD τ).loc main_arg4))) (biasOf (m ((c : Thread nD τ).loc main_arg5)))

theorem zero_offsets : (![0, 0] : Fin 2 → Nat) = fun _ => 0 := funext fun a => by fin_cases a <;> rfl

/-- The printed index maps over the grid: the x, h and result windows are at block row t, block column 0; the weight
    and bias windows stay at block (0, 0). -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of grid point t's block is row 4096·t + p of the array. -/
abbrev rowAt (t : Fin cfg0.N) (p : Fin 4096) : Fin 524288 :=
  ⟨t.val * 4096 + p.val, by have ht : t.val < 128 := t.isLt; have hp := p.isLt; omega⟩

/-- The x block at point t, entry (p, k), is x at row 4096·t + p. -/
theorem xblock_at (c : Dev nD) (t : Fin cfg0.N) (p : Fin 4096) (k : Fin 128) :
    iblk m c 0 t (ix2 p k) = m ((c : Thread nD τ).loc main_arg0) (ix2 (rowAt t p) k) := by
  obtain ⟨e0, e1, -⟩ := index_maps t
  show V m c main_arg0 (((cfg0.win 0).blk t).view.emb (ix2 p k)) = _
  rw [V_main_arg0]
  refine congrArg _ (funext fun a => Fin.ext ?_)
  match a with
  | ⟨0, _⟩ => show win0_0.index t (0 : Fin 2) * 4096 + 1 * p.val = t.val * 4096 + p.val; rw [e0]; omega
  | ⟨1, _⟩ => show win0_0.index t (1 : Fin 2) * 128 + 1 * k.val = k.val; rw [e1]; omega

/-- The h block at point t, entry (p, k), is h at row 4096·t + p. -/
theorem hblock_at (c : Dev nD) (t : Fin cfg0.N) (p : Fin 4096) (k : Fin 128) :
    iblk m c 1 t (ix2 p k) = m ((c : Thread nD τ).loc main_arg1) (ix2 (rowAt t p) k) := by
  obtain ⟨-, -, e0, e1, -⟩ := index_maps t
  show V m c main_arg1 (((cfg0.win 1).blk t).view.emb (ix2 p k)) = _
  rw [V_main_arg1]
  refine congrArg _ (funext fun a => Fin.ext ?_)
  match a with
  | ⟨0, _⟩ => show win0_1.index t (0 : Fin 2) * 4096 + 1 * p.val = t.val * 4096 + p.val; rw [e0]; omega
  | ⟨1, _⟩ => show win0_1.index t (1 : Fin 2) * 128 + 1 * k.val = k.val; rw [e1]; omega

/-- The first weight window is the whole first weight array at every point. -/
theorem w1block (c : Dev nD) (t : Fin cfg0.N) : iblk m c 2 t = m ((c : Thread nD τ).loc main_arg2) := by
  obtain ⟨-, -, -, -, e0, e1, -⟩ := index_maps t
  funext y
  show V m c main_arg2 (((cfg0.win 2).blk t).view.emb y) = _
  rw [V_main_arg2]
  refine congrArg _ (funext fun a => Fin.ext ?_)
  match a with
  | ⟨0, _⟩ => show win0_2.index t (0 : Fin 2) * 256 + 1 * (y 0).val = (y 0).val; rw [e0]; omega
  | ⟨1, _⟩ => show win0_2.index t (1 : Fin 2) * 128 + 1 * (y 1).val = (y 1).val; rw [e1]; omega

/-- The second weight window is the whole second weight array at every point. -/
theorem w2block (c : Dev nD) (t : Fin cfg0.N) : iblk m c 3 t = m ((c : Thread nD τ).loc main_arg3) := by
  obtain ⟨-, -, -, -, -, -, e0, e1, -⟩ := index_maps t
  funext y
  show V m c main_arg3 (((cfg0.win 3).blk t).view.emb y) = _
  rw [V_main_arg3]
  refine congrArg _ (funext fun a => Fin.ext ?_)
  match a with
  | ⟨0, _⟩ => show win0_3.index t (0 : Fin 2) * 256 + 1 * (y 0).val = (y 0).val; rw [e0]; omega
  | ⟨1, _⟩ => show win0_3.index t (1 : Fin 2) * 128 + 1 * (y 1).val = (y 1).val; rw [e1]; omega

/-- Before the region the first bias vector is reshaped to one row of 128. -/
theorem bias1_row (c : Dev nD) :
    (V m c main_v0 : S1x128.Idx → EReal) = shapeCast S1x128 (m ((c : Thread nD τ).loc main_arg4)) shapeCasts_S128_S1x128 := by
  dsimp only [Gen.V, Gen.hostOps0]; after_results; rfl

/-- Before the region the second bias vector is reshaped to one row of 128. -/
theorem bias2_row (c : Dev nD) :
    (V m c main_v1 : S1x128.Idx → EReal) = shapeCast S1x128 (m ((c : Thread nD τ).loc main_arg5)) shapeCasts_S128_S1x128 := by
  dsimp only [Gen.V, Gen.hostOps0]; after_results; rfl

/-- The first bias window's row is the first bias vector. -/
theorem b1block (c : Dev nD) (t : Fin cfg0.N) : rowOf (iblk m c 4 t) = biasOf (m ((c : Thread nD τ).loc main_arg4)) := by
  obtain ⟨-, -, -, -, -, -, -, -, e0, e1, -⟩ := index_maps t
  funext q
  show V m c main_v0 (((cfg0.win 4).blk t).view.emb (ix2 (0 : Fin 1) q)) = _
  have he : ((cfg0.win 4).blk t).view.emb (ix2 (0 : Fin 1) q) = ix2 (0 : Fin 1) q := funext fun a => Fin.ext (by
    match a with
    | ⟨0, _⟩ => show win0_4.index t (0 : Fin 2) * 1 + 1 * 0 = 0; rw [e0]
    | ⟨1, _⟩ => show win0_4.index t (1 : Fin 2) * 128 + 1 * q.val = q.val; rw [e1]; omega)
  rw [he, bias1_row]
  exact shapeCast_a_1a_apply _ shapeCasts_S128_S1x128 (0 : Fin 1) q

/-- The second bias window's row is the second bias vector. -/
theorem b2block (c : Dev nD) (t : Fin cfg0.N) : rowOf (iblk m c 5 t) = biasOf (m ((c : Thread nD τ).loc main_arg5)) := by
  obtain ⟨-, -, -, -, -, -, -, -, -, -, e0, e1, -⟩ := index_maps t
  funext q
  show V m c main_v1 (((cfg0.win 5).blk t).view.emb (ix2 (0 : Fin 1) q)) = _
  have he : ((cfg0.win 5).blk t).view.emb (ix2 (0 : Fin 1) q) = ix2 (0 : Fin 1) q := funext fun a => Fin.ext (by
    match a with
    | ⟨0, _⟩ => show win0_5.index t (0 : Fin 2) * 1 + 1 * 0 = 0; rw [e0]
    | ⟨1, _⟩ => show win0_5.index t (1 : Fin 2) * 128 + 1 * q.val = q.val; rw [e1]; omega)
  rw [he, bias2_row]
  exact shapeCast_a_1a_apply _ shapeCasts_S128_S1x128 (0 : Fin 1) q

/-- WHAT POINT t WRITES BACK is block t of the whole result. -/
theorem flushed_eq (c : Dev nD) (t : Fin cfg0.N) :
    (dats m 0 c).flushed 6 t = ((cfg0.win 6).blk t).view.read (Elt Ideal) (result m c) := by
  rw [Value.flushed6]
  unfold out0_6
  rw [View.canon_unit_zero zero_offsets]
  simp only [View.ld_unit_zero (S := S4096x128) zero_offsets, View.ld_unit_zero (S := S256x128) zero_offsets,
    View.ld_unit_zero (S := S1x128) zero_offsets]
  obtain ⟨-, -, -, -, -, -, -, -, -, -, -, -, e0, e1⟩ := index_maps t
  funext j
  obtain ⟨p, q, rfl⟩ : ∃ (p : Fin 4096) (q : Fin 128), j = ix2 p q := ⟨j 0, j 1, eq_ix2 j⟩
  show k0_pay1 (F := Ideal) (iblk m c 0 t) (iblk m c 1 t) (iblk m c 2 t) (iblk m c 4 t) (iblk m c 3 t) (iblk m c 5 t) (ix2 p q)
    = result m c (((cfg0.win 6).blk t).view.emb (ix2 p q))
  have he : ((cfg0.win 6).blk t).view.emb (ix2 p q) = ix2 (rowAt t p) q := funext fun a => Fin.ext (by
    match a with
    | ⟨0, _⟩ => show win0_6.index t (0 : Fin 2) * 4096 + 1 * p.val = t.val * 4096 + p.val; rw [e0]; omega
    | ⟨1, _⟩ => show win0_6.index t (1 : Fin 2) * 128 + 1 * q.val = q.val; rw [e1]; omega)
  rw [he, stored_at, w1block, w2block, b1block, b2block]
  exact twoGates_congr _ _ _ _ _ _ _ _ p (rowAt t p) q (xblock_at m c t p) (hblock_at m c t p)

/-- An index of the array is in point t's block iff each coordinate is in the block's range on its axis. -/
theorem mem_block (t : Fin cfg0.N) (i : S524288x128.Idx) :
    i ∈ ((cfg0.win 6).blk t).view.set ↔ ∀ a : Fin 2, win0_6.index t a * S4096x128.size a ≤ (i a).val ∧ (i a).val < win0_6.index t a * S4096x128.size a + S4096x128.size a := by
  show i ∈ ((View.whole main_v2).slice (win0_6.rect t)).set ↔ _
  rw [View.set_slice_whole, Rect.mem_set_unit]
  exact Iff.rfl

/-- Every row lies in the block of the point its row number divided by 4096 names. -/
theorem covered (i : S524288x128.Idx) :
    ∃ t : Fin cfg0.N, (cfg0.win 6).flush t = true ∧ i ∈ ((cfg0.win 6).blk t).view.set := by
  have hi0 : (i 0).val < 524288 := (i 0).isLt
  have hi1 : (i 1).val < 128 := (i 1).isLt
  let t : Fin cfg0.N := ⟨(i 0).val / 4096, by show (i 0).val / 4096 < 128; omega⟩
  obtain ⟨-, -, -, -, -, -, -, -, -, -, -, -, e0, e1⟩ := index_maps t
  refine ⟨t, flush0_6 t, ?_⟩
  rw [mem_block]
  intro a
  have ht : t.val = (i 0).val / 4096 := rfl
  match a with
  | ⟨0, _⟩ => show win0_6.index t (0 : Fin 2) * 4096 ≤ (i 0).val ∧ (i 0).val < win0_6.index t (0 : Fin 2) * 4096 + 4096; rw [e0]; omega
  | ⟨1, _⟩ => show win0_6.index t (1 : Fin 2) * 128 ≤ (i 1).val ∧ (i 1).val < win0_6.index t (1 : Fin 2) * 128 + 128; rw [e1]; omega

/-- THE OUTPUT ARRAY after the run is the whole result. -/
theorem final (c : Dev nD) : (dats m 0 c).arrAt 6 cfg0.N = result m c :=
  (dats m 0 c).arrAt_eq_of_cover 6 (result m c) (fun t _ => flushed_eq m c t) covered

/-- The kernel's run: every weakly fair execution ends with the output array at the two stacked gates of the argument
    arrays, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.ArrayValue

end
-- ==== Proof.RefGates.lean ====
/- The reference program, read at an entry, is the two stacked gates of its argument arrays.

   It slices each 256 × 128 weight array into its upper and lower 128 rows, multiplies x by the upper half and h by the
   lower half, adds the two products and the bias, and applies 1 / (1 + e^(−z)) spelt with negate, exponential, add and
   divide; the second stage does the same with the first stage's result in x's place. Each stage is a gate as it stands:
   the slices read rows k and 128 + k, and the spelt-out quotient is the logistic function. -/
import proofs.«420585_j47296179864168_3_alg».proof.Proof.Gen.ReferenceIdeal.Read
import proofs.«420585_j47296179864168_3_alg».proof.Proof.Gates

noncomputable section

open scoped BigOperators

namespace Cert.ReferenceIdeal.RefValue

open Cert.ReferenceIdeal Cert.ReferenceIdeal.Read Idealize.ShloMosaic Idealize.ShloMosaic.ValueIdx Cert.Gates

/-- A bias vector as a function of the column. -/
abbrev vecOf (β : (⟨S128, .f32⟩ : BufTy).Contents (Elt Ideal)) : Fin 128 → EReal := fun c => β (ix1 c)

/-- The first stage at an index: the gate of x and h over the first weight array and bias. -/
theorem stage_one (x0 x1 : (⟨S524288x128, .f32⟩ : BufTy).Contents (Elt Ideal)) (x2 : (⟨S256x128, .f32⟩ : BufTy).Contents (Elt Ideal))
    (x4 : (⟨S128, .f32⟩ : BufTy).Contents (Elt Ideal)) (i : S524288x128.Idx) :
    val_main_v13 (F := Ideal) x0 x1 x2 x4 i = gate x0 x1 x2 (vecOf x4) (i 0) (i 1) := by
  have el : ∀ k : Fin 128, lidx_main_v2 i k = ix2 (i 0) k := fun k => funext fun a => by
    match a with
    | ⟨0, _⟩ => rfl
    | ⟨1, _⟩ => rfl
  have el' : ∀ k : Fin 128, lidx_main_v3 i k = ix2 (i 0) k := fun k => funext fun a => by
    match a with
    | ⟨0, _⟩ => rfl
    | ⟨1, _⟩ => rfl
  have eu : ∀ k : Fin 128, idx_main_v0 (ridx_main_v2 i k) = ix2 (upper k) (i 1) := fun k => funext fun a => by
    match a with
    | ⟨0, _⟩ => rfl
    | ⟨1, _⟩ => rfl
  have elo : ∀ k : Fin 128, idx_main_v1 (ridx_main_v3 i k) = ix2 (lower k) (i 1) := fun k => funext fun a => by
    match a with
    | ⟨0, _⟩ => rfl
    | ⟨1, _⟩ => rfl
  have eb : idx_main_v5 (idx_main_v6 i) = ix1 (i 1) := funext fun a => by
    match a with
    | ⟨0, _⟩ => rfl
  rw [val_main_v13_apply, val_main_v12_apply, val_main_cst_0_apply, val_main_v11_apply, val_main_v10_apply, val_main_cst_apply,
    val_main_v9_apply, val_main_v8_apply, val_main_v7_apply, val_main_v6_apply, val_main_v5_apply, val_main_v4_apply,
    val_main_v2_apply, val_main_v3_apply]
  simp only [val_main_v0_apply, val_main_v1_apply, el, el', eu, elo, eb]
  unfold gate pre
  rw [← logistic_spelt]
  rfl

/-- The second stage at an index: the gate of the first stage's array and h over the second weight array and bias. -/
theorem stage_two (x0 x1 : (⟨S524288x128, .f32⟩ : BufTy).Contents (Elt Ideal)) (x2 x3 : (⟨S256x128, .f32⟩ : BufTy).Contents (Elt Ideal))
    (x4 x5 : (⟨S128, .f32⟩ : BufTy).Contents (Elt Ideal)) (i : S524288x128.Idx) :
    val_main_v27 (F := Ideal) x0 x1 x2 x3 x4 x5 i = gate (val_main_v13 (F := Ideal) x0 x1 x2 x4) x1 x3 (vecOf x5) (i 0) (i 1) := by
  have el : ∀ k : Fin 128, lidx_main_v16 i k = ix2 (i 0) k := fun k => funext fun a => by
    match a with
    | ⟨0, _⟩ => rfl
    | ⟨1, _⟩ => rfl
  have el' : ∀ k : Fin 128, lidx_main_v17 i k = ix2 (i 0) k := fun k => funext fun a => by
    match a with
    | ⟨0, _⟩ => rfl
    | ⟨1, _⟩ => rfl
  have eu : ∀ k : Fin 128, idx_main_v14 (ridx_main_v16 i k) = ix2 (upper k) (i 1) := fun k => funext fun a => by
    match a with
    | ⟨0, _⟩ => rfl
    | ⟨1, _⟩ => rfl
  have elo : ∀ k : Fin 128, idx_main_v15 (ridx_main_v17 i k) = ix2 (lower k) (i 1) := fun k => funext fun a => by
    match a with
    | ⟨0, _⟩ => rfl
    | ⟨1, _⟩ => rfl
  have eb : idx_main_v19 (idx_main_v20 i) = ix1 (i 1) := funext fun a => by
    match a with
    | ⟨0, _⟩ => rfl
  rw [val_main_v27_apply, val_main_v26_apply, val_main_cst_2_apply, val_main_v25_apply, val_main_v24_apply, val_main_cst_1_apply,
    val_main_v23_apply, val_main_v22_apply, val_main_v21_apply, val_main_v20_apply, val_main_v19_apply, val_main_v18_apply,
    val_main_v16_apply, val_main_v17_apply]
  simp only [val_main_v14_apply, val_main_v15_apply, el, el', eu, elo, eb]
  unfold gate pre
  rw [← logistic_spelt]
  rfl

/-- THE REFERENCE'S RESULT is the two stacked gates of its arguments. -/
theorem result_eq (x0 x1 : (⟨S524288x128, .f32⟩ : BufTy).Contents (Elt Ideal)) (x2 x3 : (⟨S256x128, .f32⟩ : BufTy).Contents (Elt Ideal))
    (x4 x5 : (⟨S128, .f32⟩ : BufTy).Contents (Elt Ideal)) :
    val_main_v27 (F := Ideal) x0 x1 x2 x3 x4 x5 = twoGates x0 x1 x2 x3 (vecOf x4) (vecOf x5) := by
  funext i
  rw [stage_two]
  have h : val_main_v13 (F := Ideal) x0 x1 x2 x4 = gateArr x0 x1 x2 (vecOf x4) := funext fun j => stage_one x0 x1 x2 x4 j
  rw [h]
  rfl

end Cert.ReferenceIdeal.RefValue

end
-- ==== Proof.lean ====
/- The proof of `Cert.Claim` (proofs.«420585_j47296179864168_3_alg».proof.Defs).

   Both programs compute, for 524288 rows, two stacked sigmoid gates:
       cell = σ([x | h] · W₁ + β₁),   out = σ([cell | h] · W₂ + β₂),   σ(z) = 1 / (1 + e^(−z)),
   with W₁, W₂ of 256 rows. The kernel forms the side-by-side joins and multiplies by the whole 256-row arrays, 4096
   rows per grid point; the reference slices each weight array into its upper and lower 128 rows and adds the two
   products. On the extended reals the two agree entry by entry: a sum over the 256 contracted coordinates is the sum
   over the first 128 plus the sum over the last 128 (addition is commutative and associative there, infinite entries
   included, so the inputs' finiteness is never used), a product into the zero accumulator is the plain sum of products,
   and the kernel's logistic operation is the reference's spelt-out quotient.

   Proof/Gates.lean states the function (`twoGates`) and the law; Proof/GateBlock.lean reads the kernel body's stored block
   at an entry; Proof/GateArray.lean passes from the 128 blocks to the whole array; Proof/RefGates.lean reads the
   reference's result at an entry. The frames are the generated ones (the reference's is its run with the result dropped),
   and the idealization rewrote nothing, so `preserves` is trivial. -/
import proofs.«420585_j47296179864168_3_alg».proof.Defs
import proofs.«420585_j47296179864168_3_alg».proof.Proof.Gen.Kernel
import proofs.«420585_j47296179864168_3_alg».proof.Proof.Gen.Kernel.Skeleton
import proofs.«420585_j47296179864168_3_alg».proof.Proof.Gen.Kernel.Launch
import proofs.«420585_j47296179864168_3_alg».proof.Proof.Gen.Kernel.Points
import proofs.«420585_j47296179864168_3_alg».proof.Proof.Gen.Kernel.Frame
import proofs.«420585_j47296179864168_3_alg».proof.Proof.Gen.KernelIdeal
import proofs.«420585_j47296179864168_3_alg».proof.Proof.Gen.KernelIdeal.Skeleton
import proofs.«420585_j47296179864168_3_alg».proof.Proof.Gen.KernelIdeal.Launch
import proofs.«420585_j47296179864168_3_alg».proof.Proof.Gen.KernelIdeal.Points
import proofs.«420585_j47296179864168_3_alg».proof.Proof.Gen.KernelIdeal.Frame
import proofs.«420585_j47296179864168_3_alg».proof.Proof.Gen.ReferenceIdeal
import proofs.«420585_j47296179864168_3_alg».proof.Proof.Gen.Pre_finite_inputs
import proofs.«420585_j47296179864168_3_alg».proof.Proof.Gen.KernelIdeal.Value
import proofs.«420585_j47296179864168_3_alg».proof.Proof.Gen.ReferenceIdeal.Run
import proofs.«420585_j47296179864168_3_alg».proof.Proof.Gen.ReferenceIdeal.Read
import proofs.«420585_j47296179864168_3_alg».proof.Proof.GateArray
import proofs.«420585_j47296179864168_3_alg».proof.Proof.RefGates
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the six arguments, both programs end with the result array at the two stacked gates of
    the arguments. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefValue.result_eq,
    (hagree c).1, (hagree c).2.1, (hagree c).2.2.1, (hagree c).2.2.2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
